-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x64 : Shape := ⟨3, ![16384, 64, 64]⟩
abbrev S_ : Shape := ⟨0, ![]⟩

class Facts : Prop where
  bcast_S_S16384x64x64 : S_.BroadcastsInDim S16384x64x64 (![] : Fin 0 → Fin S16384x64x64.rank)
  reducesTo_S16384x64x64_S_d0_1_2 : S16384x64x64.ReducesTo [0, 1, 2] S_
  h_S_ : 0 < S_.numel

variable [Facts]

def fn {F : FTy → Type} [FloatOps F] (main_arg0 : FVec F S16384x64x64 .f32) : IVec S_ 1 :=
  let main_v0 : FVec F S16384x64x64 .f32 := Host.absf main_arg0
  let main_cst : FVec F S_ .f32 := constant S_ .f32 0x7F800000#32
  let main_v1 : FVec F S16384x64x64 .f32 := broadcastInDim S16384x64x64 ![] bcast_S_S16384x64x64 main_cst
  let main_v2 : IVec S16384x64x64 1 := cmpf .olt main_v0 main_v1
  let main_c : IVec S_ 1 := constantI S_ 1 1#1
  let main_v3 : IVec S_ 1 := (fun x v => Host.reduce IntOp.andi x v reducesTo_S16384x64x64_S_d0_1_2 h_S_) main_v2 main_c
  main_v3
-- ==== Kernel.lean ====
abbrev S16384x64x64 : Shape := ⟨3, ![16384, 64, 64]⟩
abbrev S16384x64 : Shape := ⟨2, ![16384, 64]⟩
abbrev S128x64x64 : Shape := ⟨3, ![128, 64, 64]⟩
abbrev S128x64 : Shape := ⟨2, ![128, 64]⟩
abbrev S128x64x1 : Shape := ⟨3, ![128, 64, 1]⟩
abbrev S128x1 : Shape := ⟨2, ![128, 1]⟩
abbrev S128x1x1 : Shape := ⟨3, ![128, 1, 1]⟩
abbrev S128 : Shape := ⟨1, ![128]⟩
abbrev S128x1x64 : Shape := ⟨3, ![128, 1, 64]⟩

abbrev nBuf : Space → Nat
  | .hbm => 2
  | .vmem => 4
  | .smem => 0
  | _ => 0

abbrev bufTy : (tb : Table) → Fin (tcTables nBuf tb) → BufTy
  | .hbm, ⟨0, _⟩ => ⟨S16384x64x64, .f32⟩
  | .hbm, ⟨1, _⟩ => ⟨S16384x64, .f32⟩
  | .local _ .vmem, ⟨0, _⟩ => ⟨S128x64x64, .f32⟩
  | .local _ .vmem, ⟨1, _⟩ => ⟨S128x64x64, .f32⟩
  | .local _ .vmem, ⟨2, _⟩ => ⟨S128x64, .f32⟩
  | .local _ .vmem, ⟨3, _⟩ => ⟨S128x64, .f32⟩
  | _, _ => ⟨S16384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x64_S128x64x64_0_0_0 : ∀ a, (![0, 0, 0] : Fin 3 → Nat) a + S128x64x64.size a ≤ S128x64x64.size a
  h_S128x64x64 : 0 < S128x64x64.numel
  reduces_S128x64x1_S128x1 : S128x64x1.Reduces [1] S128x1
  shapeCasts_S128x1_S128x1x1 : S128x1.ShapeCasts S128x1x1
  broadcasts_S128x1x1_S128x64x1 : S128x1x1.Broadcasts S128x64x1
  broadcasts_S128x64x1_S128x64x64 : S128x64x1.Broadcasts S128x64x64
  reduces_S128x64x64_S128x64 : S128x64x64.Reduces [1] S128x64
  reduces_S128x64_S128 : S128x64.Reduces [1] S128
  shapeCasts_S128_S128x1 : S128.ShapeCasts S128x1
  broadcasts_S128x1_S128x64 : S128x1.Broadcasts S128x64
  shapeCasts_S128x64_S128x1x64 : S128x64.ShapeCasts S128x1x64
  broadcasts_S128x1x64_S128x64x64 : S128x1x64.Broadcasts S128x64x64
  reduces_S128x64x64_S128x64_2 : S128x64x64.Reduces [2] S128x64
  shapeCasts_S128x64_S128x64x1 : S128x64.ShapeCasts S128x64x1
  inb_S128x64_S128x64_0_0 : ∀ a, (![0, 0] : Fin 2 → Nat) a + S128x64.size a ≤ S128x64.size a
  h_S128x64 : 0 < S128x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S16384x64x64.size a
  hwx0_0 : ∀ i : grid0.Coords, EltTy.bits .f32 = 32 ∨ (Rect.block (s := S16384x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S16384x64.size a
  hwx0_1 : ∀ i : grid0.Coords, EltTy.bits .f32 = 32 ∨ (Rect.block (s := S16384x64) S128x64.size (cc0_transform_1 i) (hinb0_1 i)).WholeWords (EltTy.packing .f32)

variable [Facts₀]

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x64x64 : Shape := ⟨3, ![16384, 64, 64]⟩
abbrev S_ : Shape := ⟨0, ![]⟩
abbrev S16384x64x1 : Shape := ⟨3, ![16384, 64, 1]⟩
abbrev S16384x1 : Shape := ⟨2, ![16384, 1]⟩
abbrev S16384x1x1 : Shape := ⟨3, ![16384, 1, 1]⟩
abbrev S16384x64 : Shape := ⟨2, ![16384, 64]⟩
abbrev S16384 : Shape := ⟨1, ![16384]⟩
abbrev S16384x1x64 : Shape := ⟨3, ![16384, 1, 64]⟩

abbrev nBuf : Space → Nat
  | .hbm => 122
  | .vmem => 0
  | .smem => 0
  | _ => 0

abbrev bufTy : (tb : Table) → Fin (tcTables nBuf tb) → BufTy
  | .hbm, ⟨0, _⟩ => ⟨S16384x64x64, .f32⟩
  | .hbm, ⟨1, _⟩ => ⟨S_, .f32⟩
  | .hbm, ⟨2, _⟩ => ⟨S16384x64x1, .f32⟩
  | .hbm, ⟨3, _⟩ => ⟨S_, .f32⟩
  | .hbm, ⟨4, _⟩ => ⟨S16384x1, .f32⟩
  | .hbm, ⟨5, _⟩ => ⟨S_, .f32⟩
  | .hbm, ⟨6, _⟩ => ⟨S16384x1, .f32⟩
  | .hbm, ⟨7, _⟩ => ⟨S16384x1, .f32⟩
  | .hbm, ⟨8, _⟩ => ⟨S16384x1x1, .f32⟩
  | .hbm, ⟨9, _⟩ => ⟨S16384x64x1, .f32⟩
  | .hbm, ⟨10, _⟩ => ⟨S16384x64x1, .f32⟩
  | .hbm, ⟨11, _⟩ => ⟨S16384x64x1, .f32⟩
  | .hbm, ⟨12, _⟩ => ⟨S_, .f32⟩
  | .hbm, ⟨13, _⟩ => ⟨S16384x1, .f32⟩
  | .hbm, ⟨14, _⟩ => ⟨S16384x1x1, .f32⟩
  | .hbm, ⟨15, _⟩ => ⟨S16384x64x1, .f32⟩
  | .hbm, ⟨16, _⟩ => ⟨S16384x64x1, .f32⟩
  | .hbm, ⟨17, _⟩ => ⟨S16384x64x64, .f32⟩
  | .hbm, ⟨18, _⟩ => ⟨S16384x64x64, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x64, .f32⟩
  | .hbm, ⟨37, _⟩ => ⟨S16384x64, .f32⟩
  | .hbm, ⟨38, _⟩ => ⟨S16384x1x64, .f32⟩
  | .hbm, ⟨39, _⟩ => ⟨S16384x64x64, .f32⟩
  | .hbm, ⟨40, _⟩ => ⟨S16384x64x64, .f32⟩
  | .hbm, ⟨41, _⟩ => ⟨S_, .f32⟩
  | .hbm, ⟨42, _⟩ => ⟨S16384x64, .f32⟩
  | .hbm, ⟨43, _⟩ => ⟨S16384x64x1, .f32⟩
  | .hbm, ⟨44, _⟩ => ⟨S16384x64x1, .f32⟩
  | .hbm, ⟨45, _⟩ => ⟨S_, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1x1, .f32⟩
  | .hbm, ⟨51, _⟩ => ⟨S16384x64x1, .f32⟩
  | .hbm, ⟨52, _⟩ => ⟨S16384x64x1, .f32⟩
  | .hbm, ⟨53, _⟩ => ⟨S16384x64x1, .f32⟩
  | .hbm, ⟨54, _⟩ => ⟨S_, .f32⟩
  | .hbm, ⟨55, _⟩ => ⟨S16384x1, .f32⟩
  | .hbm, ⟨56, _⟩ => ⟨S16384x1x1, .f32⟩
  | .hbm, ⟨57, _⟩ => ⟨S16384x64x1, .f32⟩
  | .hbm, ⟨58, _⟩ => ⟨S16384x64x1, .f32⟩
  | .hbm, ⟨59, _⟩ => ⟨S16384x64x64, .f32⟩
  | .hbm, ⟨60, _⟩ => ⟨S16384x64x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x64, .f32⟩
  | .hbm, ⟨79, _⟩ => ⟨S16384x64, .f32⟩
  | .hbm, ⟨80, _⟩ => ⟨S16384x1x64, .f32⟩
  | .hbm, ⟨81, _⟩ => ⟨S16384x64x64, .f32⟩
  | .hbm, ⟨82, _⟩ => ⟨S16384x64x64, .f32⟩
  | .hbm, ⟨83, _⟩ => ⟨S_, .f32⟩
  | .hbm, ⟨84, _⟩ => ⟨S16384x64, .f32⟩
  | .hbm, ⟨85, _⟩ => ⟨S16384x64x1, .f32⟩
  | .hbm, ⟨86, _⟩ => ⟨S16384x64x1, .f32⟩
  | .hbm, ⟨87, _⟩ => ⟨S_, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1x1, .f32⟩
  | .hbm, ⟨93, _⟩ => ⟨S16384x64x1, .f32⟩
  | .hbm, ⟨94, _⟩ => ⟨S16384x64x1, .f32⟩
  | .hbm, ⟨95, _⟩ => ⟨S16384x64x1, .f32⟩
  | .hbm, ⟨96, _⟩ => ⟨S_, .f32⟩
  | .hbm, ⟨97, _⟩ => ⟨S16384x1, .f32⟩
  | .hbm, ⟨98, _⟩ => ⟨S16384x1x1, .f32⟩
  | .hbm, ⟨99, _⟩ => ⟨S16384x64x1, .f32⟩
  | .hbm, ⟨100, _⟩ => ⟨S16384x64x1, .f32⟩
  | .hbm, ⟨101, _⟩ => ⟨S16384x64x64, .f32⟩
  | .hbm, ⟨102, _⟩ => ⟨S16384x64x64, .f32⟩
  | .hbm, ⟨103, _⟩ => ⟨S_, .f32⟩
  | .hbm, ⟨104, _⟩ => ⟨S16384x64, .f32⟩
  | .hbm, ⟨105, _⟩ => ⟨S16384x64, .f32⟩
  | .hbm, ⟨106, _⟩ => ⟨S_, .f32⟩
  | .hbm, ⟨107, _⟩ => ⟨S16384, .f32⟩
  | .hbm, ⟨108, _⟩ => ⟨S16384x1, .f32⟩
  | .hbm, ⟨109, _⟩ => ⟨S16384x1, .f32⟩
  | .hbm, ⟨110, _⟩ => ⟨S16384x1, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S16384x1, .f32⟩
  | .hbm, ⟨116, _⟩ => ⟨S_, .f32⟩
  | .hbm, ⟨117, _⟩ => ⟨S16384x1, .f32⟩
  | .hbm, ⟨118, _⟩ => ⟨S16384x1, .f32⟩
  | .hbm, ⟨119, _⟩ => ⟨S16384x1, .f32⟩
  | .hbm, ⟨120, _⟩ => ⟨S16384x64, .f32⟩
  | .hbm, ⟨121, _⟩ => ⟨S16384x64, .f32⟩
  | _, _ => ⟨S16384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_call1_v0 : Ref sig .tc := ⟨.hbm, 63, rfl⟩
abbrev main_call1_cst : Ref sig .tc := ⟨.hbm, 64, rfl⟩
abbrev main_call1_v1 : Ref sig .tc := ⟨.hbm, 65, rfl⟩
abbrev main_call1_v2 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_call2_v0 : Ref sig .tc := ⟨.hbm, 105, rfl⟩
abbrev main_call2_cst : Ref sig .tc := ⟨.hbm, 106, rfl⟩
abbrev main_call2_v1 : Ref sig .tc := ⟨.hbm, 107, rfl⟩
abbrev main_call2_v2 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  bcast_S_S16384x64x1 : S_.BroadcastsInDim S16384x64x1 (![] : Fin 0 → Fin S16384x64x1.rank)
  reducesTo_S16384x64x1_S16384x1_d1 : S16384x64x1.ReducesTo [1] S16384x1
  h_S_ : 0 < S_.numel
  bcast_S_S16384x1 : S_.BroadcastsInDim S16384x1 (![] : Fin 0 → Fin S16384x1.rank)
  bcast_S16384x1_S16384x1x1_0_2 : S16384x1.BroadcastsInDim S16384x1x1 (![0, 2] : Fin 2 → Fin S16384x1x1.rank)
  bcast_S16384x1x1_S16384x64x1_0_1_2 : S16384x1x1.BroadcastsInDim S16384x64x1 (![0, 1, 2] : Fin 3 → Fin S16384x64x1.rank)
  bcast_S16384x64x1_S16384x64x64_0_1_2 : S16384x64x1.BroadcastsInDim S16384x64x64 (![0, 1, 2] : Fin 3 → Fin S16384x64x64.rank)
  reducesTo_S16384x64x64_S16384x64_d1 : S16384x64x64.ReducesTo [1] S16384x64
  reducesTo_S16384x64_S16384_d1 : S16384x64.ReducesTo [1] S16384
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S16384x64_S16384x1x64_0_2 : S16384x64.BroadcastsInDim S16384x1x64 (![0, 2] : Fin 2 → Fin S16384x1x64.rank)
  bcast_S16384x1x64_S16384x64x64_0_1_2 : S16384x1x64.BroadcastsInDim S16384x64x64 (![0, 1, 2] : Fin 3 → Fin S16384x64x64.rank)
  reducesTo_S16384x64x64_S16384x64_d2 : S16384x64x64.ReducesTo [2] S16384x64
  bcast_S16384x64_S16384x64x1_0_1 : S16384x64.BroadcastsInDim S16384x64x1 (![0, 1] : Fin 2 → Fin S16384x64x1.rank)

variable [Facts₀]

class Facts : Prop extends Facts₀ where

variable [Facts]
-- ==== Proof.Routing.lean ====
/-
  Routing by agreement on ONE batch row, over the extended reals.

  A row is a 64 × 64 table x (capsule n, coordinate d).  Starting from logits b = 0, a round takes the
  softmax of b over the capsules (the maximum subtracted first, taken from −∞), sums the capsules
  weighted by it, squashes the sum s with the factor  q / (1 + q) / (√q + ε),  q = ∑ s_d², and adds
  to each logit the inner product of its capsule with the squashed vector.  The result is the squashed
  vector of the third round.

  The two programs differ in one place: one writes the numerator and the 1 + · of the factor with q
  itself, the other with √q · √q.  A sum of squares is never negative on the extended reals, and on
  [0, ∞] the square root squares back (√∞ = ∞, ∞ · ∞ = ∞), so the factors are one number.
-/
import Idealize.ShloMosaic.PureOps.Ideal
import Idealize.ShloMosaic.PureOps.Ideal.Laws

noncomputable section

namespace Cert.Routing

open Idealize.ShloMosaic

variable {N D : ℕ}

/-- −∞, 0, 1 and ε = f32(1e-8), each as the word both programs carry. -/
abbrev wNegInf : EReal := Ideal.ofBits .f32 0xFF800000#32
abbrev wZero : EReal := Ideal.ofBits .f32 0x00000000#32
abbrev wOne : EReal := Ideal.ofBits .f32 0x3F800000#32
abbrev wEps : EReal := Ideal.ofBits .f32 0x322BCC77#32

/-- The maximum a softmax subtracts: −∞ against the running maximum of the logits from −∞. -/
def rowMax (b : Fin N → EReal) : EReal := max wNegInf ((Finset.univ : Finset (Fin N)).fold max wNegInf b)

/-- exp of a logit less the row maximum. -/
def expShift (b : Fin N → EReal) (n : Fin N) : EReal := Ideal.exp (b n - rowMax b)

/-- The softmax weight of capsule n. -/
def coupling (b : Fin N → EReal) (n : Fin N) : EReal := Ideal.div (expShift b n) (∑ k : Fin N, expShift b k)

/-- The capsules summed with their softmax weights, coordinate by coordinate. -/
def wsum (b : Fin N → EReal) (x : Fin N → Fin D → EReal) (d : Fin D) : EReal := ∑ n : Fin N, coupling b n * x n d

/-- The squared length of a vector. -/
def sumsq (s : Fin D → EReal) : EReal := ∑ d : Fin D, s d * s d

/-- The squashing factor written with q itself … -/
def scaleQ (q : EReal) : EReal := Ideal.div (Ideal.div q (wOne + q)) (Ideal.sqrt q + wEps)

/-- … and written with √q · √q. -/
def scaleRoot (q : EReal) : EReal :=
  Ideal.div (Ideal.div (Ideal.sqrt q * Ideal.sqrt q) (wOne + Ideal.sqrt q * Ideal.sqrt q)) (Ideal.sqrt q + wEps)

def squashQ (s : Fin D → EReal) (d : Fin D) : EReal := scaleQ (sumsq s) * s d
def squashRoot (s : Fin D → EReal) (d : Fin D) : EReal := scaleRoot (sumsq s) * s d

/-- The inner product of capsule n with a vector. -/
def agree (x : Fin N → Fin D → EReal) (v : Fin D → EReal) (n : Fin N) : EReal := ∑ d : Fin D, x n d * v d

/-- One round's new logits, for either spelling of the squash. -/
def nextQ (b : Fin N → EReal) (x : Fin N → Fin D → EReal) (n : Fin N) : EReal := b n + agree x (squashQ (wsum b x)) n
def nextRoot (b : Fin N → EReal) (x : Fin N → Fin D → EReal) (n : Fin N) : EReal := b n + agree x (squashRoot (wsum b x)) n

/-- Three rounds from zero logits; the third round's squashed vector is the result. -/
def routeQ (x : Fin N → Fin D → EReal) : Fin D → EReal :=
  squashQ (wsum (nextQ (nextQ (fun _ => wZero) x) x) x)
def routeRoot (x : Fin N → Fin D → EReal) : Fin D → EReal :=
  squashRoot (wsum (nextRoot (nextRoot (fun _ => wZero) x) x) x)

/-- A square is never negative on the extended reals: (±∞)² = ∞. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact_mod_cast _root_.mul_self_nonneg r

theorem sumsq_nonneg (s : Fin D → EReal) : 0 ≤ sumsq s :=
  Finset.sum_nonneg fun d _ => mul_self_nonneg (s d)

/-- On [0, ∞] the square root squares back. -/
theorem sqrt_mul_self {q : EReal} (h : 0 ≤ q) : Ideal.sqrt q * Ideal.sqrt q = q := by
  induction q using EReal.rec with
  | bot => exact absurd h (by simp)
  | top => rw [Ideal.sqrt_top, EReal.top_mul_top]
  | coe r =>
    have hr : 0 ≤ r := by exact_mod_cast h
    rw [Ideal.sqrt_coe, if_neg (not_lt.mpr hr), ← EReal.coe_mul, Real.mul_self_sqrt hr]

theorem scaleRoot_eq {q : EReal} (h : 0 ≤ q) : scaleRoot q = scaleQ q := by
  unfold scaleRoot scaleQ; rw [sqrt_mul_self h]

theorem squashRoot_eq (s : Fin D → EReal) : squashRoot s = squashQ s :=
  funext fun d => by unfold squashRoot squashQ; rw [scaleRoot_eq (sumsq_nonneg s)]

theorem nextRoot_eq (b : Fin N → EReal) (x : Fin N → Fin D → EReal) : nextRoot b x = nextQ b x :=
  funext fun n => by unfold nextRoot nextQ; rw [squashRoot_eq]

/-- So the two spellings route alike. -/
theorem routeRoot_eq (x : Fin N → Fin D → EReal) : routeRoot x = routeQ x := by
  unfold routeRoot routeQ; rw [nextRoot_eq, nextRoot_eq, squashRoot_eq]

end Cert.Routing

end
-- ==== Proof.LibBatched.lean ====
/-
  General lemmas for reading BATCHED rank-3 programs at the ideal values: over a [B, N, D] array whose
  leading axis is a batch that no operation mixes, a reduction along the middle or the last axis, the
  unit-axis casts and the broadcasts between [B, D], [B, 1, D], [B, N], [B, N, 1] and [B, N, D], each
  read at an index built by `ix2` / `ix3` as a plain sum, a plain fold, or the operand at one index —
  for a kernel's vector operations and for the host's.  Nothing here mentions a particular program.
-/
import Idealize.ShloMosaic.PureOps.Ideal
import Idealize.ShloMosaic.PureOps.Ideal.Laws
import Idealize.ShloMosaic.Lib.ValueIdx
import Idealize.ShloMosaic.Lib.Pipeline.Value

noncomputable section
namespace Cert.LibBatched
open Idealize.ShloMosaic Idealize.ShloMosaic.ValueIdx

variable {α : Type}

/-! ## Where a reduced index comes from -/

/-- (p, d) with the middle coordinate k put back is (p, k, d). -/
theorem lift_mid {B N D : ℕ} (h : (⟨3, ![B, N, D]⟩ : Shape).Reduces [1] (⟨2, ![B, D]⟩ : Shape)) (p : Fin B) (d : Fin D)
    (k : Fin ((⟨3, ![B, N, D]⟩ : Shape).size 1)) : h.lift (ix2 p d) k = ix3 p (⟨k.val, k.isLt⟩ : Fin N) d := by
  funext c; apply Fin.ext
  fin_cases c <;> rfl

/-- (p, n) with the last coordinate k put back is (p, n, k). -/
theorem lift_last {B N D : ℕ} (h : (⟨3, ![B, N, D]⟩ : Shape).Reduces [2] (⟨2, ![B, N]⟩ : Shape)) (p : Fin B) (n : Fin N)
    (k : Fin ((⟨3, ![B, N, D]⟩ : Shape).size 2)) : h.lift (ix2 p n) k = ix3 p n (⟨k.val, k.isLt⟩ : Fin D) := by
  funext c; apply Fin.ext
  fin_cases c <;> rfl

/-! ## A kernel's reductions -/

/-- A sum along the middle axis at (p, d): `∑ n, src (p, n, d)`. -/
theorem multiReduction_add_mid {B N D : ℕ} {φ : FTy} (src : FVec Ideal ⟨3, ![B, N, D]⟩ φ) (acc : BitVec φ.bits)
    (h : (⟨3, ![B, N, D]⟩ : Shape).Reduces [1] (⟨2, ![B, D]⟩ : Shape)) (hφ : FKind.Formats φ) (hacc : acc = FKind.add.neutral φ hφ)
    (p : Fin B) (d : Fin D) :
    multiReduction .add [1] ⟨2, ![B, D]⟩ src acc h hφ hacc (ix2 p d) = ∑ n : Fin N, src (ix3 p n d) := by
  refine (Ideal.multiReduction_add_single src acc h hφ hacc (ix2 p d)).trans ?_
  exact Finset.sum_congr rfl fun k _ => congrArg src (lift_mid h p d k)

/-- A sum along the last axis at (p, n): `∑ d, src (p, n, d)`. -/
theorem multiReduction_add_last {B N D : ℕ} {φ : FTy} (src : FVec Ideal ⟨3, ![B, N, D]⟩ φ) (acc : BitVec φ.bits)
    (h : (⟨3, ![B, N, D]⟩ : Shape).Reduces [2] (⟨2, ![B, N]⟩ : Shape)) (hφ : FKind.Formats φ) (hacc : acc = FKind.add.neutral φ hφ)
    (p : Fin B) (n : Fin N) :
    multiReduction .add [2] ⟨2, ![B, N]⟩ src acc h hφ hacc (ix2 p n) = ∑ d : Fin D, src (ix3 p n d) := by
  refine (Ideal.multiReduction_add_single src acc h hφ hacc (ix2 p n)).trans ?_
  exact Finset.sum_congr rfl fun k _ => congrArg src (lift_last h p n k)

/-- A maximum along the middle axis at (p, d): the fold of max from the accumulator's value. -/
theorem multiReduction_max_mid {B N D : ℕ} {φ : FTy} (src : FVec Ideal ⟨3, ![B, N, D]⟩ φ) (acc : BitVec φ.bits)
    (h : (⟨3, ![B, N, D]⟩ : Shape).Reduces [1] (⟨2, ![B, D]⟩ : Shape)) (hφ : FKind.Formats φ) (hacc : acc = FKind.maximumf.neutral φ hφ)
    (p : Fin B) (d : Fin D) :
    multiReduction .maximumf [1] ⟨2, ![B, D]⟩ src acc h hφ hacc (ix2 p d)
      = (Finset.univ : Finset (Fin N)).fold max (Ideal.ofBits φ acc) (fun n => src (ix3 p n d)) := by
  refine (Ideal.multiReduction_maximumf_single src acc h hφ hacc (ix2 p d)).trans ?_
  exact congrArg (fun f => Finset.fold max (Ideal.ofBits φ acc) f (Finset.univ : Finset (Fin N)))
    (funext fun k => congrArg src (lift_mid h p d k))

/-! ## The host's reductions -/

/-- The host's sum along the middle axis at (p, d): the initial value plus `∑ n, x (p, n, d)`. -/
theorem hostReduceAdd_mid {B N D : ℕ} {φ : FTy} {u : Shape} (x : FVec Ideal ⟨3, ![B, N, D]⟩ φ) (init : u.Idx → Ideal φ)
    (h' : (⟨3, ![B, N, D]⟩ : Shape).ReducesTo [1] (⟨2, ![B, D]⟩ : Shape)) (h : (⟨3, ![B, N, D]⟩ : Shape).Reduces [1] (⟨2, ![B, D]⟩ : Shape))
    (hu : 0 < u.numel) (p : Fin B) (d : Fin D) :
    Host.reduceAdd x init h' hu (ix2 p d) = init (Shape.Idx.first hu) + ∑ n : Fin N, x (ix3 p n d) := by
  refine (Ideal.hostReduceAdd_single h' h x (init (Shape.Idx.first hu)) (ix2 p d)).trans ?_
  congr 1
  exact Finset.sum_congr rfl fun k _ => congrArg x (lift_mid h p d k)

/-- The host's sum along the last axis at (p, n): the initial value plus `∑ d, x (p, n, d)`. -/
theorem hostReduceAdd_last {B N D : ℕ} {φ : FTy} {u : Shape} (x : FVec Ideal ⟨3, ![B, N, D]⟩ φ) (init : u.Idx → Ideal φ)
    (h' : (⟨3, ![B, N, D]⟩ : Shape).ReducesTo [2] (⟨2, ![B, N]⟩ : Shape)) (h : (⟨3, ![B, N, D]⟩ : Shape).Reduces [2] (⟨2, ![B, N]⟩ : Shape))
    (hu : 0 < u.numel) (p : Fin B) (n : Fin N) :
    Host.reduceAdd x init h' hu (ix2 p n) = init (Shape.Idx.first hu) + ∑ d : Fin D, x (ix3 p n d) := by
  refine (Ideal.hostReduceAdd_single h' h x (init (Shape.Idx.first hu)) (ix2 p n)).trans ?_
  congr 1
  exact Finset.sum_congr rfl fun k _ => congrArg x (lift_last h p n k)

/-- The host's maximum along the middle axis at (p, d): the fold of max from the initial value. -/
theorem hostReduceMax_mid {B N D : ℕ} {φ : FTy} {u : Shape} (x : FVec Ideal ⟨3, ![B, N, D]⟩ φ) (init : u.Idx → Ideal φ)
    (h' : (⟨3, ![B, N, D]⟩ : Shape).ReducesTo [1] (⟨2, ![B, D]⟩ : Shape)) (h : (⟨3, ![B, N, D]⟩ : Shape).Reduces [1] (⟨2, ![B, D]⟩ : Shape))
    (hu : 0 < u.numel) (p : Fin B) (d : Fin D) :
    Host.reduce FloatOps.maximumf x init h' hu (ix2 p d)
      = (Finset.univ : Finset (Fin N)).fold max (init (Shape.Idx.first hu)) (fun n => x (ix3 p n d)) := by
  rw [Host.reduce_eq_fold_single FloatOps.maximumf x init h' h hu]
  exact congrArg (fun f => Finset.fold max (init (Shape.Idx.first hu)) f (Finset.univ : Finset (Fin N)))
    (funext fun k => congrArg x (lift_mid h p d k))

/-! ## A kernel's unit-axis casts and broadcasts -/

/-- [B, D] viewed as [B, 1, D], at (p, 0, d): the matrix at (p, d). -/
theorem shapeCast_bd_b1d_apply {B D : ℕ} (v : (⟨2, ![B, D]⟩ : Shape).Idx → α)
    (h : (⟨2, ![B, D]⟩ : Shape).ShapeCasts ⟨3, ![B, 1, D]⟩) (p : Fin B) (d : Fin D) :
    shapeCast ⟨3, ![B, 1, D]⟩ v h (ix3 p (0 : Fin 1) d) = v (ix2 p d) := by
  refine shapeCast_apply v h (ix3 p (0 : Fin 1) d) (ix2 p d) ?_
  rw [Shape.rowMajor_val_two, Shape.rowMajor_val_three]
  show p.val * D + d.val = (p.val * 1 + 0) * D + d.val
  rw [Nat.mul_one, Nat.add_zero]

/-- [B, N] viewed as [B, N, 1], at (p, n, 0): the matrix at (p, n). -/
theorem shapeCast_bn_bn1_apply {B N : ℕ} (v : (⟨2, ![B, N]⟩ : Shape).Idx → α)
    (h : (⟨2, ![B, N]⟩ : Shape).ShapeCasts ⟨3, ![B, N, 1]⟩) (p : Fin B) (n : Fin N) :
    shapeCast ⟨3, ![B, N, 1]⟩ v h (ix3 p n (0 : Fin 1)) = v (ix2 p n) := by
  refine shapeCast_apply v h (ix3 p n (0 : Fin 1)) (ix2 p n) ?_
  rw [Shape.rowMajor_val_two, Shape.rowMajor_val_three]
  show p.val * N + n.val = (p.val * N + n.val) * 1 + 0
  omega

/-- A vector of length B viewed as a [B, 1] column, at (p, 0): the vector at p. -/
theorem shapeCast_b_b1_apply {B : ℕ} (v : (⟨1, ![B]⟩ : Shape).Idx → α) (h : (⟨1, ![B]⟩ : Shape).ShapeCasts ⟨2, ![B, 1]⟩)
    (p : Fin B) : shapeCast ⟨2, ![B, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- [B, 1, D] broadcast along the middle axis to [B, N, D], at (p, n, d): the operand at (p, 0, d). -/
theorem broadcastTo_b1d_bnd_apply {B N D : ℕ} (v : (⟨3, ![B, 1, D]⟩ : Shape).Idx → α)
    (h : (⟨3, ![B, 1, D]⟩ : Shape).Broadcasts ⟨3, ![B, N, D]⟩) (p : Fin B) (n : Fin N) (d : Fin D) :
    broadcastTo ⟨3, ![B, N, D]⟩ v h (ix3 p n d) = v (ix3 p (0 : Fin 1) d) := by
  refine broadcastTo_apply v h (ix3 p n d) (ix3 p (0 : Fin 1) d) fun ax => ?_
  match ax with
  | ⟨0, _⟩ =>
    show p.val = if B = 1 then 0 else p.val
    split
    · have := p.isLt; omega
    · rfl
  | ⟨1, _⟩ => rfl
  | ⟨2, _⟩ =>
    show d.val = if D = 1 then 0 else d.val
    split
    · have := d.isLt; omega
    · rfl

/-- [B, N, 1] broadcast along the last axis to [B, N, D], at (p, n, d): the operand at (p, n, 0). -/
theorem broadcastTo_bn1_bnd_apply {B N D : ℕ} (v : (⟨3, ![B, N, 1]⟩ : Shape).Idx → α)
    (h : (⟨3, ![B, N, 1]⟩ : Shape).Broadcasts ⟨3, ![B, N, D]⟩) (p : Fin B) (n : Fin N) (d : Fin D) :
    broadcastTo ⟨3, ![B, N, D]⟩ v h (ix3 p n d) = v (ix3 p n (0 : Fin 1)) := by
  refine broadcastTo_apply v h (ix3 p n d) (ix3 p n (0 : Fin 1)) fun ax => ?_
  match ax with
  | ⟨0, _⟩ =>
    show p.val = if B = 1 then 0 else p.val
    split
    · have := p.isLt; omega
    · rfl
  | ⟨1, _⟩ =>
    show n.val = if N = 1 then 0 else n.val
    split
    · have := n.isLt; omega
    · rfl
  | ⟨2, _⟩ => rfl

/-- A [B, 1] column broadcast to [B, D], at (p, d): the column at p. -/
theorem broadcastTo_b1_bd_apply {B D : ℕ} (v : (⟨2, ![B, 1]⟩ : Shape).Idx → α) (h : (⟨2, ![B, 1]⟩ : Shape).Broadcasts ⟨2, ![B, D]⟩)
    (p : Fin B) (d : Fin D) : broadcastTo ⟨2, ![B, D]⟩ v h (ix2 p d) = v (ix2 p (0 : Fin 1)) := by
  refine broadcastTo_apply v h (ix2 p d) (ix2 p (0 : Fin 1)) fun ax => ?_
  match ax with
  | ⟨0, _⟩ =>
    show p.val = if B = 1 then 0 else p.val
    split
    · have := p.isLt; omega
    · rfl
  | ⟨1, _⟩ => rfl

/-! ## The host's broadcasts -/

/-- [B, D] placed on axes 0 and 2 of [B, 1, D], at (p, 0, d): the matrix at (p, d). -/
theorem bcast_bd_b1d_apply {B D : ℕ} (h : (⟨2, ![B, D]⟩ : Shape).BroadcastsInDim ⟨3, ![B, 1, D]⟩ ![0, 2])
    (v : (⟨2, ![B, D]⟩ : Shape).Idx → α) (p : Fin B) (d : Fin D) :
    broadcastInDim ⟨3, ![B, 1, D]⟩ ![0, 2] h v (ix3 p (0 : Fin 1) d) = v (ix2 p d) := by
  refine broadcastInDim_apply _ h v (ix3 p (0 : Fin 1) d) (ix2 p d) fun ax => ?_
  match ax with
  | ⟨0, _⟩ =>
    show p.val = if B = 1 then 0 else p.val
    split
    · have := p.isLt; omega
    · rfl
  | ⟨1, _⟩ =>
    show d.val = if D = 1 then 0 else d.val
    split
    · have := d.isLt; omega
    · rfl

/-- [B, N] placed on axes 0 and 1 of [B, N, 1], at (p, n, 0): the matrix at (p, n). -/
theorem bcast_bn_bn1_apply {B N : ℕ} (h : (⟨2, ![B, N]⟩ : Shape).BroadcastsInDim ⟨3, ![B, N, 1]⟩ ![0, 1])
    (v : (⟨2, ![B, N]⟩ : Shape).Idx → α) (p : Fin B) (n : Fin N) :
    broadcastInDim ⟨3, ![B, N, 1]⟩ ![0, 1] h v (ix3 p n (0 : Fin 1)) = v (ix2 p n) := by
  refine broadcastInDim_apply _ h v (ix3 p n (0 : Fin 1)) (ix2 p n) fun ax => ?_
  match ax with
  | ⟨0, _⟩ =>
    show p.val = if B = 1 then 0 else p.val
    split
    · have := p.isLt; omega
    · rfl
  | ⟨1, _⟩ =>
    show n.val = if N = 1 then 0 else n.val
    split
    · have := n.isLt; omega
    · rfl

/-- [B, 1, D] broadcast in place to [B, N, D], at (p, n, d): the operand at (p, 0, d). -/
theorem bcast_b1d_bnd_apply {B N D : ℕ} (h : (⟨3, ![B, 1, D]⟩ : Shape).BroadcastsInDim ⟨3, ![B, N, D]⟩ ![0, 1, 2])
    (v : (⟨3, ![B, 1, D]⟩ : Shape).Idx → α) (p : Fin B) (n : Fin N) (d : Fin D) :
    broadcastInDim ⟨3, ![B, N, D]⟩ ![0, 1, 2] h v (ix3 p n d) = v (ix3 p (0 : Fin 1) d) := by
  refine broadcastInDim_apply _ h v (ix3 p n d) (ix3 p (0 : Fin 1) d) fun ax => ?_
  match ax with
  | ⟨0, _⟩ =>
    show p.val = if B = 1 then 0 else p.val
    split
    · have := p.isLt; omega
    · rfl
  | ⟨1, _⟩ => rfl
  | ⟨2, _⟩ =>
    show d.val = if D = 1 then 0 else d.val
    split
    · have := d.isLt; omega
    · rfl

/-- [B, N, 1] broadcast in place to [B, N, D], at (p, n, d): the operand at (p, n, 0). -/
theorem bcast_bn1_bnd_apply {B N D : ℕ} (h : (⟨3, ![B, N, 1]⟩ : Shape).BroadcastsInDim ⟨3, ![B, N, D]⟩ ![0, 1, 2])
    (v : (⟨3, ![B, N, 1]⟩ : Shape).Idx → α) (p : Fin B) (n : Fin N) (d : Fin D) :
    broadcastInDim ⟨3, ![B, N, D]⟩ ![0, 1, 2] h v (ix3 p n d) = v (ix3 p n (0 : Fin 1)) := by
  refine broadcastInDim_apply _ h v (ix3 p n d) (ix3 p n (0 : Fin 1)) fun ax => ?_
  match ax with
  | ⟨0, _⟩ =>
    show p.val = if B = 1 then 0 else p.val
    split
    · have := p.isLt; omega
    · rfl
  | ⟨1, _⟩ =>
    show n.val = if N = 1 then 0 else n.val
    split
    · have := n.isLt; omega
    · rfl
  | ⟨2, _⟩ => rfl

/-- A [B, 1] column broadcast in place to [B, D], at (p, d): the column at p. -/
theorem bcast_b1_bd_apply {B D : ℕ} (h : (⟨2, ![B, 1]⟩ : Shape).BroadcastsInDim ⟨2, ![B, D]⟩ ![0, 1])
    (v : (⟨2, ![B, 1]⟩ : Shape).Idx → α) (p : Fin B) (d : Fin D) :
    broadcastInDim ⟨2, ![B, D]⟩ ![0, 1] h v (ix2 p d) = v (ix2 p (0 : Fin 1)) := by
  refine broadcastInDim_apply _ h v (ix2 p d) (ix2 p (0 : Fin 1)) fun ax => ?_
  match ax with
  | ⟨0, _⟩ =>
    show p.val = if B = 1 then 0 else p.val
    split
    · have := p.isLt; omega
    · rfl
  | ⟨1, _⟩ => rfl

/-- A vector of length B placed as a [B, 1] column, at (p, 0): the vector at p. -/
theorem bcast_b_b1_apply {B : ℕ} (h : (⟨1, ![B]⟩ : Shape).BroadcastsInDim ⟨2, ![B, 1]⟩ ![0])
    (v : (⟨1, ![B]⟩ : Shape).Idx → α) (p : Fin B) :
    broadcastInDim ⟨2, ![B, 1]⟩ ![0] h v (ix2 p (0 : Fin 1)) = v (ix1 p) := by
  refine broadcastInDim_apply _ h v (ix2 p (0 : Fin 1)) (ix1 p) fun ax => ?_
  match ax with
  | ⟨0, _⟩ =>
    show p.val = if B = 1 then 0 else p.val
    split
    · have := p.isLt; omega
    · rfl

/-- A scalar broadcast to any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply _ h v j ix0 fun ax => ax.elim0

/-! ## Sums along the second axis of a matrix -/

/-- Row p of a [B, D] matrix with column k put back is (p, k). -/
theorem lift_row {B D : ℕ} (h : (⟨2, ![B, D]⟩ : Shape).Reduces [1] (⟨1, ![B]⟩ : Shape)) (p : Fin B)
    (k : Fin ((⟨2, ![B, D]⟩ : Shape).size 1)) : h.lift (ix1 p) k = ix2 p (⟨k.val, k.isLt⟩ : Fin D) := by
  funext c; apply Fin.ext
  fin_cases c <;> rfl

/-- A kernel's sum along the rows of a [B, D] matrix at p: `∑ d, src (p, d)`. -/
theorem multiReduction_add_row {B D : ℕ} {φ : FTy} (src : FVec Ideal ⟨2, ![B, D]⟩ φ) (acc : BitVec φ.bits)
    (h : (⟨2, ![B, D]⟩ : Shape).Reduces [1] (⟨1, ![B]⟩ : Shape)) (hφ : FKind.Formats φ) (hacc : acc = FKind.add.neutral φ hφ) (p : Fin B) :
    multiReduction .add [1] ⟨1, ![B]⟩ src acc h hφ hacc (ix1 p) = ∑ d : Fin D, src (ix2 p d) := by
  refine (Ideal.multiReduction_add_single src acc h hφ hacc (ix1 p)).trans ?_
  exact Finset.sum_congr rfl fun k _ => congrArg src (lift_row h p k)

/-- The host's sum along the rows of a [B, D] matrix at p: the initial value plus `∑ d, x (p, d)`. -/
theorem hostReduceAdd_row {B D : ℕ} {φ : FTy} {u : Shape} (x : FVec Ideal ⟨2, ![B, D]⟩ φ) (init : u.Idx → Ideal φ)
    (h' : (⟨2, ![B, D]⟩ : Shape).ReducesTo [1] (⟨1, ![B]⟩ : Shape)) (h : (⟨2, ![B, D]⟩ : Shape).Reduces [1] (⟨1, ![B]⟩ : Shape))
    (hu : 0 < u.numel) (p : Fin B) :
    Host.reduceAdd x init h' hu (ix1 p) = init (Shape.Idx.first hu) + ∑ d : Fin D, x (ix2 p d) := by
  refine (Ideal.hostReduceAdd_single h' h x (init (Shape.Idx.first hu)) (ix1 p)).trans ?_
  congr 1
  exact Finset.sum_congr rfl fun k _ => congrArg x (lift_row h p k)

/-! ## The kernel's reductions at f32, with the accumulator's word literal

The evidence that the accumulator is the neutral word is typed as the equation of the word with itself, which
is what a printed `rfl` proves, so that these rewrite a printed term where the general forms above only apply. -/

theorem multiReduction_add_mid_f32 {B N D : ℕ} (src : FVec Ideal ⟨3, ![B, N, D]⟩ .f32)
    (h : (⟨3, ![B, N, D]⟩ : Shape).Reduces [1] (⟨2, ![B, D]⟩ : Shape)) (hφ : FKind.Formats .f32)
    (hacc : (0x00000000#32 : BitVec 32) = 0x00000000#32) (p : Fin B) (d : Fin D) :
    multiReduction .add [1] ⟨2, ![B, D]⟩ src 0x00000000#32 h hφ hacc (ix2 p d) = ∑ n : Fin N, src (ix3 p n d) :=
  multiReduction_add_mid src 0x00000000#32 h hφ hacc p d

theorem multiReduction_add_last_f32 {B N D : ℕ} (src : FVec Ideal ⟨3, ![B, N, D]⟩ .f32)
    (h : (⟨3, ![B, N, D]⟩ : Shape).Reduces [2] (⟨2, ![B, N]⟩ : Shape)) (hφ : FKind.Formats .f32)
    (hacc : (0x00000000#32 : BitVec 32) = 0x00000000#32) (p : Fin B) (n : Fin N) :
    multiReduction .add [2] ⟨2, ![B, N]⟩ src 0x00000000#32 h hφ hacc (ix2 p n) = ∑ d : Fin D, src (ix3 p n d) :=
  multiReduction_add_last src 0x00000000#32 h hφ hacc p n

theorem multiReduction_add_row_f32 {B D : ℕ} (src : FVec Ideal ⟨2, ![B, D]⟩ .f32)
    (h : (⟨2, ![B, D]⟩ : Shape).Reduces [1] (⟨1, ![B]⟩ : Shape)) (hφ : FKind.Formats .f32)
    (hacc : (0x00000000#32 : BitVec 32) = 0x00000000#32) (p : Fin B) :
    multiReduction .add [1] ⟨1, ![B]⟩ src 0x00000000#32 h hφ hacc (ix1 p) = ∑ d : Fin D, src (ix2 p d) :=
  multiReduction_add_row src 0x00000000#32 h hφ hacc p

theorem multiReduction_max_mid_f32 {B N D : ℕ} (src : FVec Ideal ⟨3, ![B, N, D]⟩ .f32)
    (h : (⟨3, ![B, N, D]⟩ : Shape).Reduces [1] (⟨2, ![B, D]⟩ : Shape)) (hφ : FKind.Formats .f32)
    (hacc : (0xFF800000#32 : BitVec 32) = 0xFF800000#32) (p : Fin B) (d : Fin D) :
    multiReduction .maximumf [1] ⟨2, ![B, D]⟩ src 0xFF800000#32 h hφ hacc (ix2 p d)
      = (Finset.univ : Finset (Fin N)).fold max (Ideal.ofBits .f32 0xFF800000#32) (fun n => src (ix3 p n d)) :=
  multiReduction_max_mid src 0xFF800000#32 h hφ hacc p d

end Cert.LibBatched
end
-- ==== Proof.KernelRounds.lean ====
/-
  The kernel's arithmetic on one block of 128 batch rows, cut into the pieces of a routing round, and
  each piece read at an index: row p of the piece is the round's function (Routing.lean) of row p of
  its operands.  The batch axis is never mixed: every reduction runs along the capsule axis or the
  coordinate axis, every broadcast fills one of those two.
-/
import proofs.«119546_j77833397338704_1_alg».proof.Proof.Gen.KernelIdeal.Skeleton
import proofs.«119546_j77833397338704_1_alg».proof.Proof.Routing
import proofs.«119546_j77833397338704_1_alg».proof.Proof.LibBatched

noncomputable section

namespace Cert.KernelIdeal.Rounds

open Idealize.ShloMosaic Idealize.ShloMosaic.ValueIdx Cert.KernelIdeal Cert.KernelIdeal.Gen Cert.LibBatched

/-- exp of the logits less their maximum over the capsules (the maximum taken from −∞, then against −∞). -/
def expShift (b : FVec Ideal S128x64x1 .f32) : FVec Ideal S128x64x1 .f32 :=
  exp (subf b (broadcastTo S128x64x1 (shapeCast S128x1x1
    (maximumf (broadcast S128x1 (Scalar.ofBits .f32 0xFF800000#32))
      (multiReduction .maximumf [1] S128x1 b 0xFF800000#32 reduces_S128x64x1_S128x1 (.inl rfl) rfl))
    shapeCasts_S128x1_S128x1x1) broadcasts_S128x1x1_S128x64x1))

/-- Their sum over the capsules, spread back over the capsules. -/
def expTotal (e : FVec Ideal S128x64x1 .f32) : FVec Ideal S128x64x1 .f32 :=
  broadcastTo S128x64x1 (shapeCast S128x1x1
    (multiReduction .add [1] S128x1 e 0x00000000#32 reduces_S128x64x1_S128x1 (.inl rfl) rfl)
    shapeCasts_S128x1_S128x1x1) broadcasts_S128x1x1_S128x64x1

/-- The capsules summed with the weights e / t. -/
def weighted (e t : FVec Ideal S128x64x1 .f32) (x : Vec Ideal S128x64x64 .f32) : FVec Ideal S128x64 .f32 :=
  multiReduction .add [1] S128x64 (mulf (broadcastTo S128x64x64 (divf e t) broadcasts_S128x64x1_S128x64x64) x)
    0x00000000#32 reduces_S128x64x64_S128x64 (.inl rfl) rfl

/-- The squared length of each row of s, as a column. -/
def sqLen (s : FVec Ideal S128x64 .f32) : FVec Ideal S128x1 .f32 :=
  shapeCast S128x1 (multiReduction .add [1] S128 (mulf s s) 0x00000000#32 reduces_S128x64_S128 (.inl rfl) rfl)
    shapeCasts_S128_S128x1

/-- The squash, its factor written with the squared length q itself. -/
def squash (s : FVec Ideal S128x64 .f32) : FVec Ideal S128x64 .f32 :=
  mulf (broadcastTo S128x64
    (divf (divf (sqLen s) (addf (broadcast S128x1 (Scalar.ofBits .f32 0x3F800000#32)) (sqLen s)))
      (addf (sqrt (sqLen s)) (broadcast S128x1 (Scalar.ofBits .f32 0x322BCC77#32))))
    broadcasts_S128x1_S128x64) s

/-- The logits plus each capsule's inner product with v. -/
def next (b : FVec Ideal S128x64x1 .f32) (x : Vec Ideal S128x64x64 .f32) (v : FVec Ideal S128x64 .f32) :
    FVec Ideal S128x64x1 .f32 :=
  addf b (shapeCast S128x64x1
    (multiReduction .add [2] S128x64
      (mulf x (broadcastTo S128x64x64 (shapeCast S128x1x64 v shapeCasts_S128x64_S128x1x64) broadcasts_S128x1x64_S128x64x64))
      0x00000000#32 reduces_S128x64x64_S128x64_2 (.inl rfl) rfl)
    shapeCasts_S128x64_S128x64x1)

/-- The squashed weighted sum at logits b. -/
def output (b : FVec Ideal S128x64x1 .f32) (x : Vec Ideal S128x64x64 .f32) : FVec Ideal S128x64 .f32 :=
  squash (weighted (expShift b) (expTotal (expShift b)) x)

/-- One whole round on the logits. -/
def round (b : FVec Ideal S128x64x1 .f32) (x : Vec Ideal S128x64x64 .f32) : FVec Ideal S128x64x1 .f32 :=
  next b x (output b x)

/-- The zero logits a block starts from. -/
def logits0 : FVec Ideal S128x64x1 .f32 := broadcast S128x64x1 (Scalar.ofBits .f32 0x00000000#32)

/-! ## The body's four named values are these pieces -/

theorem pay1_eq (x : Vec Ideal S128x64x64 .f32) : k0_pay1 (F := Ideal) x = round logits0 x := rfl

theorem pay2_eq (x : Vec Ideal S128x64x64 .f32) : k0_pay2 (F := Ideal) x = expShift (round logits0 x) := rfl

theorem pay3_eq (x : Vec Ideal S128x64x64 .f32) : k0_pay3 (F := Ideal) x = expTotal (expShift (round logits0 x)) := rfl

theorem pay4_eq (x : Vec Ideal S128x64x64 .f32) (b e t : FVec Ideal S128x64x1 .f32) :
    k0_pay4 (F := Ideal) x b e t = output (next b x (squash (weighted e t x))) x := rfl

/-- What the body stores: the third round's output. -/
theorem stored_eq (x : Vec Ideal S128x64x64 .f32) :
    k0_pay4 (F := Ideal) x (k0_pay1 x) (k0_pay2 x) (k0_pay3 x) = output (round (round logits0 x) x) x := by
  rw [pay4_eq, pay1_eq, pay2_eq, pay3_eq]; rfl

/-! ## Each piece, one batch row at a time -/

/-- Row p of a column of logits, of the capsule block, of a [128, 64] matrix. -/
abbrev rowB (b : FVec Ideal S128x64x1 .f32) (p : Fin 128) : Fin 64 → EReal := fun n => b (ix3 p n (0 : Fin 1))
abbrev rowX (x : Vec Ideal S128x64x64 .f32) (p : Fin 128) : Fin 64 → Fin 64 → EReal := fun n d => x (ix3 p n d)
abbrev rowS (s : FVec Ideal S128x64 .f32) (p : Fin 128) : Fin 64 → EReal := fun d => s (ix2 p d)

theorem expShift_apply (b : FVec Ideal S128x64x1 .f32) (p : Fin 128) (n : Fin 64) :
    expShift b (ix3 p n (0 : Fin 1)) = Routing.expShift (rowB b p) n := by
  unfold expShift Routing.expShift Routing.rowMax
  show Ideal.exp (b (ix3 p n (0 : Fin 1)) - broadcastTo S128x64x1 _ broadcasts_S128x1x1_S128x64x1 (ix3 p n (0 : Fin 1))) = _
  rw [broadcastTo_b1d_bnd_apply, shapeCast_bd_b1d_apply]
  show Ideal.exp (_ - max (Ideal.ofBits .f32 0xFF800000#32)
    (multiReduction .maximumf [1] S128x1 b 0xFF800000#32 reduces_S128x64x1_S128x1 (.inl rfl) rfl (ix2 p (0 : Fin 1)))) = _
  rw [multiReduction_max_mid_f32]

theorem expTotal_apply (e : FVec Ideal S128x64x1 .f32) (p : Fin 128) (n : Fin 64) :
    expTotal e (ix3 p n (0 : Fin 1)) = ∑ k : Fin 64, e (ix3 p k (0 : Fin 1)) := by
  unfold expTotal
  rw [broadcastTo_b1d_bnd_apply, shapeCast_bd_b1d_apply, multiReduction_add_mid_f32]

theorem weighted_apply (e t : FVec Ideal S128x64x1 .f32) (x : Vec Ideal S128x64x64 .f32) (p : Fin 128) (d : Fin 64) :
    weighted e t x (ix2 p d)
      = ∑ n : Fin 64, Ideal.div (e (ix3 p n (0 : Fin 1))) (t (ix3 p n (0 : Fin 1))) * x (ix3 p n d) := by
  unfold weighted
  rw [multiReduction_add_mid_f32]
  refine Finset.sum_congr rfl fun n _ => ?_
  show broadcastTo S128x64x64 (divf e t) broadcasts_S128x64x1_S128x64x64 (ix3 p n d) * x (ix3 p n d) = _
  rw [broadcastTo_bn1_bnd_apply]
  rfl

theorem sqLen_apply (s : FVec Ideal S128x64 .f32) (p : Fin 128) :
    sqLen s (ix2 p (0 : Fin 1)) = Routing.sumsq (rowS s p) := by
  unfold sqLen Routing.sumsq
  rw [shapeCast_b_b1_apply, multiReduction_add_row_f32]
  rfl

theorem squash_apply (s : FVec Ideal S128x64 .f32) (p : Fin 128) (d : Fin 64) :
    squash s (ix2 p d) = Routing.squashQ (rowS s p) d := by
  unfold squash Routing.squashQ Routing.scaleQ
  show broadcastTo S128x64 _ broadcasts_S128x1_S128x64 (ix2 p d) * s (ix2 p d) = _
  rw [broadcastTo_b1_bd_apply]
  show Ideal.div (Ideal.div (sqLen s (ix2 p (0 : Fin 1))) (Ideal.ofBits .f32 0x3F800000#32 + sqLen s (ix2 p (0 : Fin 1))))
      (Ideal.sqrt (sqLen s (ix2 p (0 : Fin 1))) + Ideal.ofBits .f32 0x322BCC77#32) * s (ix2 p d) = _
  rw [sqLen_apply]

theorem next_apply (b : FVec Ideal S128x64x1 .f32) (x : Vec Ideal S128x64x64 .f32) (v : FVec Ideal S128x64 .f32)
    (p : Fin 128) (n : Fin 64) :
    next b x v (ix3 p n (0 : Fin 1)) = b (ix3 p n (0 : Fin 1)) + Routing.agree (rowX x p) (rowS v p) n := by
  unfold next Routing.agree
  show b (ix3 p n (0 : Fin 1)) + shapeCast S128x64x1 _ shapeCasts_S128x64_S128x64x1 (ix3 p n (0 : Fin 1)) = _
  rw [shapeCast_bn_bn1_apply, multiReduction_add_last_f32]
  congr 1
  refine Finset.sum_congr rfl fun d _ => ?_
  show x (ix3 p n d) * broadcastTo S128x64x64 _ broadcasts_S128x1x64_S128x64x64 (ix3 p n d) = _
  rw [broadcastTo_b1d_bnd_apply, shapeCast_bd_b1d_apply]

/-- The softmax weight of capsule n in row p. -/
theorem coupling_apply (b : FVec Ideal S128x64x1 .f32) (p : Fin 128) (n : Fin 64) :
    Ideal.div (expShift b (ix3 p n (0 : Fin 1))) (expTotal (expShift b) (ix3 p n (0 : Fin 1)))
      = Routing.coupling (rowB b p) n := by
  rw [expTotal_apply, expShift_apply]
  unfold Routing.coupling
  congr 1
  exact Finset.sum_congr rfl fun k _ => expShift_apply b p k

theorem output_apply (b : FVec Ideal S128x64x1 .f32) (x : Vec Ideal S128x64x64 .f32) (p : Fin 128) (d : Fin 64) :
    output b x (ix2 p d) = Routing.squashQ (Routing.wsum (rowB b p) (rowX x p)) d := by
  unfold output
  rw [squash_apply]
  congr 1
  funext d'
  show weighted (expShift b) (expTotal (expShift b)) x (ix2 p d') = _
  rw [weighted_apply]
  unfold Routing.wsum
  exact Finset.sum_congr rfl fun n _ => congrArg (· * x (ix3 p n d')) (coupling_apply b p n)

theorem round_row (b : FVec Ideal S128x64x1 .f32) (x : Vec Ideal S128x64x64 .f32) (p : Fin 128) :
    rowB (round b x) p = Routing.nextQ (rowB b p) (rowX x p) := by
  funext n
  show round b x (ix3 p n (0 : Fin 1)) = _
  unfold round Routing.nextQ
  rw [next_apply]
  congr 2
  funext d
  exact output_apply b x p d

/-- Row p of what the body stores is the routing of row p of the capsule block. -/
theorem stored_apply (x : Vec Ideal S128x64x64 .f32) (p : Fin 128) (d : Fin 64) :
    k0_pay4 (F := Ideal) x (k0_pay1 x) (k0_pay2 x) (k0_pay3 x) (ix2 p d) = Routing.routeQ (rowX x p) d := by
  rw [stored_eq, output_apply, round_row, round_row]
  rfl

end Cert.KernelIdeal.Rounds

end
-- ==== Proof.KernelValue.lean ====
/-
  The kernel's result array after its run.  Grid point t stages rows 128·t … 128·t + 127 of the argument
  and writes back the same rows of the result; what it writes in row p of its block is the routing of
  row p of the staged block (KernelRounds.lean), that is, of row 128·t + p of the argument.  The 128
  blocks tile the result array, so the array ends as the whole batch routed row by row.
-/
import proofs.«119546_j77833397338704_1_alg».proof.Proof.Gen.KernelIdeal.Frame
import proofs.«119546_j77833397338704_1_alg».proof.Proof.KernelRounds
import Idealize.ShloMosaic.Lib.Pipeline.Value

set_option maxRecDepth 16384

noncomputable section

namespace Cert.KernelIdeal.Routed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole batch routed row by row: entry (r, d) is coordinate d of the routing of row r. -/
def routeAll (A : S16384x64x64.Idx → EReal) : S16384x64.Idx → EReal :=
  fun i => Routing.routeQ (fun n e => A (ix3 (i 0) n e)) (i 1)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the 128 grid points: the input block and the output block sit at the same block
    row, and at block 0 of every other axis. -/
theorem idx_facts : ∀ t : Fin cfg0.N, win0_0.index t (0 : Fin 3) = win0_1.index t (0 : Fin 2)
    ∧ win0_0.index t (1 : Fin 3) = 0 ∧ win0_0.index t (2 : Fin 3) = 0 ∧ win0_1.index t (1 : Fin 2) = 0 :=
  (by decide +kernel : ∀ t : Fin grid0.N, _)

/-- Every block row is some point's. -/
theorem idx_onto : ∀ q : Fin 128, ∃ t : Fin cfg0.N, win0_1.index t = ![q.val, 0] :=
  (by decide +kernel : ∀ q : Fin 128, ∃ t : Fin grid0.N, win0_1.index t = ![q.val, 0])

/-- What point t writes back is block t of the routed batch. -/
theorem flushed_eq (c : Dev nD) (t : Fin cfg0.N) :
    (dats m 0 c).flushed 1 t = ((cfg0.win 1).blk t).view.read (Elt Ideal) (routeAll (V m c main_arg0)) := by
  show (cfg0.win 1).cut (grid0.coords t) ((dats m 0 c).after 1 t) = _
  rw [after0_1]
  unfold out0_1
  rw [View.canon_unit_zero zero2]
  simp only [View.ld_unit_zero (S := S128x64x64) zero3]
  obtain ⟨e0, e1, e2, e3⟩ := idx_facts t
  refine funext fun (j : S128x64.Idx) => ?_
  obtain ⟨p, d, rfl⟩ : ∃ (p : Fin 128) (d : Fin 64), j = ix2 p d := ⟨j 0, j 1, eq_ix2 j⟩
  show k0_pay4 (F := Ideal) (iblk m c 0 t) (k0_pay1 (iblk m c 0 t)) (k0_pay2 (iblk m c 0 t)) (k0_pay3 (iblk m c 0 t)) (ix2 p d)
    = routeAll (V m c main_arg0) (((cfg0.win 1).blk t).view.emb (ix2 p d))
  refine (Rounds.stored_apply (iblk m c 0 t) p d).trans ?_
  unfold routeAll
  have hd : (((cfg0.win 1).blk t).view.emb (ix2 p d)) 1 = d :=
    Fin.ext (by show win0_1.index t (1 : Fin 2) * 64 + 1 * d.val = d.val; omega)
  have hX : Rounds.rowX (iblk m c 0 t) p
      = fun n e => V m c main_arg0 (ix3 ((((cfg0.win 1).blk t).view.emb (ix2 p d)) 0) n e) := by
    funext n e
    show V m c main_arg0 (((cfg0.win 0).blk t).view.emb (ix3 p n e)) = _
    refine congrArg (V m c main_arg0) (funext fun a => Fin.ext ?_)
    match a with
    | ⟨0, _⟩ => show win0_0.index t (0 : Fin 3) * 128 + 1 * p.val = win0_1.index t (0 : Fin 2) * 128 + 1 * p.val; omega
    | ⟨1, _⟩ => show win0_0.index t (1 : Fin 3) * 64 + 1 * n.val = n.val; omega
    | ⟨2, _⟩ => show win0_0.index t (2 : Fin 3) * 64 + 1 * e.val = e.val; omega
  rw [hX, hd]

/-- An index of the result array is in point t's block iff each coordinate is in the block's range on its axis. -/
theorem mem_blk (t : Fin cfg0.N) (i : S16384x64.Idx) :
    i ∈ ((cfg0.win 1).blk t).view.set ↔ ∀ a : Fin 2, win0_1.index t a * S128x64.size a ≤ (i a).val
      ∧ (i a).val < win0_1.index t a * S128x64.size a + S128x64.size a := by
  show i ∈ ((View.whole main_v0).slice (win0_1.rect t)).set ↔ _
  rw [View.set_slice_whole, Rect.mem_set_unit]
  exact Iff.rfl

/-- Row r lies in the block of the point at block row r / 128: the blocks tile the array. -/
theorem cover (i : S16384x64.Idx) : ∃ t : Fin cfg0.N, (cfg0.win 1).flush t = true ∧ i ∈ ((cfg0.win 1).blk t).view.set := by
  have hi0 : (i 0).val < 16384 := (i 0).isLt
  have hi1 : (i 1).val < 64 := (i 1).isLt
  obtain ⟨t, ht⟩ := idx_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 64 ≤ (i 1).val ∧ (i 1).val < win0_1.index t (1 : Fin 2) * 64 + 64; omega

/-- The result array after the run is the routed batch of the argument as launched. -/
theorem final (c : Dev nD) : (dats m 0 c).arrAt 1 cfg0.N = routeAll (m ((c : Thread nD τ).loc main_arg0)) :=
  (dats m 0 c).arrAt_eq_of_cover 1 (routeAll (V m c main_arg0)) (fun t _ => flushed_eq m c t) cover

/-- The frame run re-posted: the result array at the routed batch of the argument, the argument unchanged. -/
theorem run : θ_run defs (onTc (τ := τ) (main (F := Ideal))) ⟨m, fun _ => 0, ρ⟩ fun r => ∀ c : Dev nD,
      r.2.mem ((c : Thread nD τ).loc main_v0) = routeAll (m ((c : Thread nD τ).loc main_arg0))
      ∧ r.2.mem ((c : Thread nD τ).loc main_arg0) = m ((c : Thread nD τ).loc main_arg0) :=
  (θ_run defs _ _).mono
    (fun r h c => ⟨((h c).1 1).trans (final m c),
      ((h c).1 0).trans (((dats m 0 c).arrAt_in 0 rfl _).trans ((A_eq m c 0).trans (V_main_arg0 m c)))⟩)
    (run_main m ρ)

end Cert.KernelIdeal.Routed

end
-- ==== Proof.HostRounds.lean ====
/-
  The reference's arithmetic on the whole batch of 16384 rows, cut into the pieces of a routing round,
  and each piece read at an index: row r of the piece is the round's function (Routing.lean) of row r
  of its operands.  Its squash is written with the norm √q, the factor's numerator and 1 + · as
  √q · √q.  Every host sum starts from the constant 0, which adds nothing.
-/
import proofs.«119546_j77833397338704_1_alg».proof.Proof.Gen.ReferenceIdeal
import proofs.«119546_j77833397338704_1_alg».proof.Proof.Routing
import proofs.«119546_j77833397338704_1_alg».proof.Proof.LibBatched

noncomputable section

namespace Cert.ReferenceIdeal.Rounds

open Idealize.ShloMosaic Idealize.ShloMosaic.ValueIdx Cert.ReferenceIdeal Cert.ReferenceIdeal.Gen Cert.LibBatched

section Pieces

variable {F : FTy → Type} [FloatOps F]

/-- The scalar constants the program broadcasts. -/
abbrev cZero : FVec F S_ .f32 := constant S_ .f32 0x00000000#32
abbrev cNegInf : FVec F S_ .f32 := constant S_ .f32 0xFF800000#32
abbrev cOne : FVec F S_ .f32 := constant S_ .f32 0x3F800000#32
abbrev cEps : FVec F S_ .f32 := constant S_ .f32 0x322BCC77#32

/-- exp of the logits less their maximum over the capsules (the maximum taken from −∞, then against −∞). -/
def expShift (b : FVec F S16384x64x1 .f32) : FVec F S16384x64x1 .f32 :=
  Host.exp (subf b (broadcastInDim S16384x64x1 ![0, 1, 2] bcast_S16384x1x1_S16384x64x1_0_1_2
    (broadcastInDim S16384x1x1 ![0, 2] bcast_S16384x1_S16384x1x1_0_2
      (maximumf (broadcastInDim S16384x1 ![] bcast_S_S16384x1 cNegInf)
        (Host.reduce FloatOps.maximumf b cNegInf reducesTo_S16384x64x1_S16384x1_d1 h_S_)))))

/-- Their sum over the capsules, spread back over the capsules. -/
def expTotal (e : FVec F S16384x64x1 .f32) : FVec F S16384x64x1 .f32 :=
  broadcastInDim S16384x64x1 ![0, 1, 2] bcast_S16384x1x1_S16384x64x1_0_1_2
    (broadcastInDim S16384x1x1 ![0, 2] bcast_S16384x1_S16384x1x1_0_2
      (Host.reduceAdd e cZero reducesTo_S16384x64x1_S16384x1_d1 h_S_))

/-- The capsules summed with the weights e / t. -/
def weighted (e t : FVec F S16384x64x1 .f32) (x : FVec F S16384x64x64 .f32) : FVec F S16384x64 .f32 :=
  Host.reduceAdd (mulf (broadcastInDim S16384x64x64 ![0, 1, 2] bcast_S16384x64x1_S16384x64x64_0_1_2 (Host.divf e t)) x)
    cZero reducesTo_S16384x64x64_S16384x64_d1 h_S_

/-- The length of each row of s, as a column. -/
def norm (s : FVec F S16384x64 .f32) : FVec F S16384x1 .f32 :=
  Host.sqrt (broadcastInDim S16384x1 ![0] bcast_S16384_S16384x1_0
    (Host.reduceAdd (mulf s s) cZero reducesTo_S16384x64_S16384_d1 h_S_))

/-- The squash, its factor written with the length's square. -/
def squash (s : FVec F S16384x64 .f32) : FVec F S16384x64 .f32 :=
  mulf (broadcastInDim S16384x64 ![0, 1] bcast_S16384x1_S16384x64_0_1
    (Host.divf (Host.divf (mulf (norm s) (norm s))
        (addf (broadcastInDim S16384x1 ![] bcast_S_S16384x1 cOne) (mulf (norm s) (norm s))))
      (addf (norm s) (broadcastInDim S16384x1 ![] bcast_S_S16384x1 cEps)))) s

/-- The logits plus each capsule's inner product with v. -/
def next (b : FVec F S16384x64x1 .f32) (x : FVec F S16384x64x64 .f32) (v : FVec F S16384x64 .f32) :
    FVec F S16384x64x1 .f32 :=
  addf b (broadcastInDim S16384x64x1 ![0, 1] bcast_S16384x64_S16384x64x1_0_1
    (Host.reduceAdd
      (mulf x (broadcastInDim S16384x64x64 ![0, 1, 2] bcast_S16384x1x64_S16384x64x64_0_1_2
        (broadcastInDim S16384x1x64 ![0, 2] bcast_S16384x64_S16384x1x64_0_2 v)))
      cZero reducesTo_S16384x64x64_S16384x64_d2 h_S_))

/-- The squashed weighted sum at logits b. -/
def output (b : FVec F S16384x64x1 .f32) (x : FVec F S16384x64x64 .f32) : FVec F S16384x64 .f32 :=
  squash (weighted (expShift b) (expTotal (expShift b)) x)

/-- One whole round on the logits. -/
def round (b : FVec F S16384x64x1 .f32) (x : FVec F S16384x64x64 .f32) : FVec F S16384x64x1 .f32 :=
  next b x (output b x)

/-- The zero logits the program starts from. -/
def logits0 : FVec F S16384x64x1 .f32 := broadcastInDim S16384x64x1 ![] bcast_S_S16384x64x1 cZero

/-- The program's result as a function of its argument: the third round's output. -/
def result (x : FVec F S16384x64x64 .f32) : FVec F S16384x64 .f32 := output (round (round logits0 x) x) x

end Pieces

/-! ## Each piece, one batch row at a time -/

theorem red_mid1 : S16384x64x1.Reduces [1] S16384x1 := by decide
theorem red_mid : S16384x64x64.Reduces [1] S16384x64 := by decide
theorem red_last : S16384x64x64.Reduces [2] S16384x64 := by decide
theorem red_row : S16384x64.Reduces [1] S16384 := by decide

/-- The constant 0 a host sum starts from adds nothing. -/
theorem zero_init (i : S_.Idx) : cZero (F := Ideal) i = (0 : EReal) := Ideal.ofBits_zero_f32

abbrev rowB (b : FVec Ideal S16384x64x1 .f32) (r : Fin 16384) : Fin 64 → EReal := fun n => b (ix3 r n (0 : Fin 1))
abbrev rowX (x : FVec Ideal S16384x64x64 .f32) (r : Fin 16384) : Fin 64 → Fin 64 → EReal := fun n d => x (ix3 r n d)
abbrev rowS (s : FVec Ideal S16384x64 .f32) (r : Fin 16384) : Fin 64 → EReal := fun d => s (ix2 r d)

/-- The host's pointwise operations at an index, at the ideal values. -/
theorem hexp_apply {s : Shape} {φ : FTy} (v : FVec Ideal s φ) (i : s.Idx) : Host.exp v i = Ideal.exp (v i) := rfl
theorem hsqrt_apply {s : Shape} {φ : FTy} (v : FVec Ideal s φ) (i : s.Idx) : Host.sqrt v i = Ideal.sqrt (v i) := rfl
theorem hdivf_apply {s : Shape} {φ : FTy} (a b : FVec Ideal s φ) (i : s.Idx) : Host.divf a b i = Ideal.div (a i) (b i) := rfl

theorem expShift_apply (b : FVec Ideal S16384x64x1 .f32) (r : Fin 16384) (n : Fin 64) :
    expShift b (ix3 r n (0 : Fin 1)) = Routing.expShift (rowB b r) n := by
  unfold expShift Routing.expShift Routing.rowMax
  rw [hexp_apply, subf_apply, bcast_b1d_bnd_apply, bcast_bd_b1d_apply, maximumf_apply,
    hostReduceMax_mid b (cNegInf (F := Ideal)) _ red_mid1, bcast_scalar_apply]
  rfl

theorem expTotal_apply (e : FVec Ideal S16384x64x1 .f32) (r : Fin 16384) (n : Fin 64) :
    expTotal e (ix3 r n (0 : Fin 1)) = ∑ k : Fin 64, e (ix3 r k (0 : Fin 1)) := by
  unfold expTotal
  rw [bcast_b1d_bnd_apply, bcast_bd_b1d_apply, hostReduceAdd_mid e (cZero (F := Ideal)) _ red_mid1, zero_init, zero_add]

theorem weighted_apply (e t : FVec Ideal S16384x64x1 .f32) (x : FVec Ideal S16384x64x64 .f32) (r : Fin 16384) (d : Fin 64) :
    weighted e t x (ix2 r d)
      = ∑ n : Fin 64, Ideal.div (e (ix3 r n (0 : Fin 1))) (t (ix3 r n (0 : Fin 1))) * x (ix3 r n d) := by
  unfold weighted
  rw [hostReduceAdd_mid _ (cZero (F := Ideal)) _ red_mid, zero_init, zero_add]
  refine Finset.sum_congr rfl fun n _ => ?_
  rw [mulf_apply, bcast_bn1_bnd_apply, hdivf_apply]

theorem norm_apply (s : FVec Ideal S16384x64 .f32) (r : Fin 16384) :
    norm s (ix2 r (0 : Fin 1)) = Ideal.sqrt (Routing.sumsq (rowS s r)) := by
  unfold norm Routing.sumsq
  rw [hsqrt_apply, bcast_b_b1_apply, hostReduceAdd_row _ (cZero (F := Ideal)) _ red_row, zero_init, zero_add]
  refine congrArg Ideal.sqrt (Finset.sum_congr rfl fun d _ => ?_)
  rw [mulf_apply]

theorem squash_apply (s : FVec Ideal S16384x64 .f32) (r : Fin 16384) (d : Fin 64) :
    squash s (ix2 r d) = Routing.squashRoot (rowS s r) d := by
  unfold squash Routing.squashRoot Routing.scaleRoot
  rw [mulf_apply, bcast_b1_bd_apply, hdivf_apply, hdivf_apply, mulf_apply, addf_apply, addf_apply, mulf_apply,
    norm_apply, bcast_scalar_apply, bcast_scalar_apply]
  rfl

theorem next_apply (b : FVec Ideal S16384x64x1 .f32) (x : FVec Ideal S16384x64x64 .f32) (v : FVec Ideal S16384x64 .f32)
    (r : Fin 16384) (n : Fin 64) :
    next b x v (ix3 r n (0 : Fin 1)) = b (ix3 r n (0 : Fin 1)) + Routing.agree (rowX x r) (rowS v r) n := by
  unfold next Routing.agree
  rw [addf_apply, bcast_bn_bn1_apply, hostReduceAdd_last _ (cZero (F := Ideal)) _ red_last, zero_init, zero_add]
  refine congrArg (b (ix3 r n (0 : Fin 1)) + ·) (Finset.sum_congr rfl fun d _ => ?_)
  rw [mulf_apply, bcast_b1d_bnd_apply, bcast_bd_b1d_apply]

/-- The softmax weight of capsule n in row r. -/
theorem coupling_apply (b : FVec Ideal S16384x64x1 .f32) (r : Fin 16384) (n : Fin 64) :
    Ideal.div (expShift b (ix3 r n (0 : Fin 1))) (expTotal (expShift b) (ix3 r n (0 : Fin 1)))
      = Routing.coupling (rowB b r) n := by
  rw [expTotal_apply, expShift_apply]
  unfold Routing.coupling
  exact congrArg (Ideal.div _) (Finset.sum_congr rfl fun k _ => expShift_apply b r k)

theorem weighted_row (b : FVec Ideal S16384x64x1 .f32) (x : FVec Ideal S16384x64x64 .f32) (r : Fin 16384) :
    rowS (weighted (expShift b) (expTotal (expShift b)) x) r = Routing.wsum (rowB b r) (rowX x r) := by
  funext d
  unfold Routing.wsum
  show weighted (expShift b) (expTotal (expShift b)) x (ix2 r d) = _
  rw [weighted_apply]
  exact Finset.sum_congr rfl fun n _ => congrArg (· * x (ix3 r n d)) (coupling_apply b r n)

theorem output_apply (b : FVec Ideal S16384x64x1 .f32) (x : FVec Ideal S16384x64x64 .f32) (r : Fin 16384) (d : Fin 64) :
    output b x (ix2 r d) = Routing.squashRoot (Routing.wsum (rowB b r) (rowX x r)) d := by
  unfold output
  rw [squash_apply, weighted_row]

theorem output_row (b : FVec Ideal S16384x64x1 .f32) (x : FVec Ideal S16384x64x64 .f32) (r : Fin 16384) :
    rowS (output b x) r = Routing.squashRoot (Routing.wsum (rowB b r) (rowX x r)) :=
  funext fun d => output_apply b x r d

theorem round_row (b : FVec Ideal S16384x64x1 .f32) (x : FVec Ideal S16384x64x64 .f32) (r : Fin 16384) :
    rowB (round b x) r = Routing.nextRoot (rowB b r) (rowX x r) := by
  funext n
  unfold round Routing.nextRoot
  show next b x (output b x) (ix3 r n (0 : Fin 1)) = _
  rw [next_apply, output_row]

theorem logits0_row (r : Fin 16384) : rowB (logits0 (F := Ideal)) r = fun _ => Routing.wZero := by
  funext n
  exact (bcast_scalar_apply bcast_S_S16384x64x1 (cZero (F := Ideal)) (ix3 r n (0 : Fin 1))).trans rfl

/-- Row r of the program's result is the routing of row r of its argument. -/
theorem result_apply (x : FVec Ideal S16384x64x64 .f32) (r : Fin 16384) (d : Fin 64) :
    result x (ix2 r d) = Routing.routeQ (rowX x r) d := by
  unfold result
  rw [output_apply, round_row, round_row, logits0_row, ← Routing.routeRoot_eq]
  rfl

end Cert.ReferenceIdeal.Rounds

end
-- ==== Proof.ReferenceRun.lean ====
/-
  The reference's run, one routing round at a time.  Its @main is a straight line of 121 host
  operations: 44 for the first round (zero logits to the logits after one round), 42 for the second,
  35 for the third round's squashed weighted sum.  Each stretch, from ANY contents V of the buffers,
  leaves in its last buffer the round's function (HostRounds.lean) of what V holds in the buffers the
  stretch reads — the logits of the round before and the argument — and leaves the argument alone; the
  three stretches composed give the whole program's result as `Rounds.result` of the argument.
-/
import proofs.«119546_j77833397338704_1_alg».proof.Proof.HostRounds
import Idealize.ShloMosaic.Lib.StableHlo.Run
import Idealize.ShloMosaic.Lib.Pipeline.Frame

noncomputable section

namespace Cert.ReferenceIdeal.RoundRun

open Cert.ReferenceIdeal Cert.ReferenceIdeal.Gen Idealize.ShloMosaic Idealize.ShloMosaic.TcCoe Idealize.SL.Sem Idealize.ShloMosaic.StableHlo

variable {F : FTy → Type} [FloatOps F]

/-- The first round: from the constant zero logits `main_v0` to the logits `main_v31` (the norm's five operations
    stand in its call's place). -/
abbrev round1 : List (HloOp τ sig (Elt F)) :=
  [
    nullary main_cst (constant S_ .f32 0x00000000#32),
    unary main_cst main_v0 (broadcastInDim S16384x64x1 ![] bcast_S_S16384x64x1),
    nullary main_cst_0 (constant S_ .f32 0xFF800000#32),
    binary main_v0 main_cst_0 main_v1 (fun x v => Host.reduce FloatOps.maximumf x v reducesTo_S16384x64x1_S16384x1_d1 h_S_),
    nullary main_cst_1 (constant S_ .f32 0xFF800000#32),
    unary main_cst_1 main_v2 (broadcastInDim S16384x1 ![] bcast_S_S16384x1),
    binary main_v2 main_v1 main_v3 maximumf,
    unary main_v3 main_v4 (broadcastInDim S16384x1x1 ![0, 2] bcast_S16384x1_S16384x1x1_0_2),
    unary main_v4 main_v5 (broadcastInDim S16384x64x1 ![0, 1, 2] bcast_S16384x1x1_S16384x64x1_0_1_2),
    binary main_v0 main_v5 main_v6 subf,
    unary main_v6 main_v7 Host.exp,
    nullary main_cst_2 (constant S_ .f32 0x00000000#32),
    binary main_v7 main_cst_2 main_v8 (fun x v => Host.reduceAdd x v reducesTo_S16384x64x1_S16384x1_d1 h_S_),
    unary main_v8 main_v9 (broadcastInDim S16384x1x1 ![0, 2] bcast_S16384x1_S16384x1x1_0_2),
    unary main_v9 main_v10 (broadcastInDim S16384x64x1 ![0, 1, 2] bcast_S16384x1x1_S16384x64x1_0_1_2),
    binary main_v7 main_v10 main_v11 Host.divf,
    unary main_v11 main_v12 (broadcastInDim S16384x64x64 ![0, 1, 2] bcast_S16384x64x1_S16384x64x64_0_1_2),
    binary main_v12 main_arg0 main_v13 mulf,
    nullary main_cst_3 (constant S_ .f32 0x00000000#32),
    binary main_v13 main_cst_3 main_v14 (fun x v => Host.reduceAdd x v reducesTo_S16384x64x64_S16384x64_d1 h_S_),
    TRef.binary (TRef.of (T := ⟨S16384x64, .f32⟩) main_v14) (TRef.of (T := ⟨S16384x64, .f32⟩) main_v14) (TRef.of (T := ⟨S16384x64, .f32⟩) main_call0_v0) mulf,
    TRef.nullary (TRef.of (T := ⟨S_, .f32⟩) main_call0_cst) (constant S_ .f32 0x00000000#32),
    TRef.binary (TRef.of (T := ⟨S16384x64, .f32⟩) main_call0_v0) (TRef.of (T := ⟨S_, .f32⟩) main_call0_cst) (TRef.of (T := ⟨S16384, .f32⟩) main_call0_v1) (fun x v => Host.reduceAdd x v reducesTo_S16384x64_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v15) Host.sqrt,
    binary main_v15 main_v15 main_v16 mulf,
    binary main_v15 main_v15 main_v17 mulf,
    nullary main_cst_4 (constant S_ .f32 0x3F800000#32),
    unary main_cst_4 main_v18 (broadcastInDim S16384x1 ![] bcast_S_S16384x1),
    binary main_v18 main_v17 main_v19 addf,
    binary main_v16 main_v19 main_v20 Host.divf,
    nullary main_cst_5 (constant S_ .f32 0x322BCC77#32),
    unary main_cst_5 main_v21 (broadcastInDim S16384x1 ![] bcast_S_S16384x1),
    binary main_v15 main_v21 main_v22 addf,
    binary main_v20 main_v22 main_v23 Host.divf,
    unary main_v23 main_v24 (broadcastInDim S16384x64 ![0, 1] bcast_S16384x1_S16384x64_0_1),
    binary main_v24 main_v14 main_v25 mulf,
    unary main_v25 main_v26 (broadcastInDim S16384x1x64 ![0, 2] bcast_S16384x64_S16384x1x64_0_2),
    unary main_v26 main_v27 (broadcastInDim S16384x64x64 ![0, 1, 2] bcast_S16384x1x64_S16384x64x64_0_1_2),
    binary main_arg0 main_v27 main_v28 mulf,
    nullary main_cst_6 (constant S_ .f32 0x00000000#32),
    binary main_v28 main_cst_6 main_v29 (fun x v => Host.reduceAdd x v reducesTo_S16384x64x64_S16384x64_d2 h_S_),
    unary main_v29 main_v30 (broadcastInDim S16384x64x1 ![0, 1] bcast_S16384x64_S16384x64x1_0_1),
    binary main_v0 main_v30 main_v31 addf ]

/-- The second round: from `main_v31` to the logits `main_v62`. -/
abbrev round2 : List (HloOp τ sig (Elt F)) :=
  [
    nullary main_cst_7 (constant S_ .f32 0xFF800000#32),
    binary main_v31 main_cst_7 main_v32 (fun x v => Host.reduce FloatOps.maximumf x v reducesTo_S16384x64x1_S16384x1_d1 h_S_),
    nullary main_cst_8 (constant S_ .f32 0xFF800000#32),
    unary main_cst_8 main_v33 (broadcastInDim S16384x1 ![] bcast_S_S16384x1),
    binary main_v33 main_v32 main_v34 maximumf,
    unary main_v34 main_v35 (broadcastInDim S16384x1x1 ![0, 2] bcast_S16384x1_S16384x1x1_0_2),
    unary main_v35 main_v36 (broadcastInDim S16384x64x1 ![0, 1, 2] bcast_S16384x1x1_S16384x64x1_0_1_2),
    binary main_v31 main_v36 main_v37 subf,
    unary main_v37 main_v38 Host.exp,
    nullary main_cst_9 (constant S_ .f32 0x00000000#32),
    binary main_v38 main_cst_9 main_v39 (fun x v => Host.reduceAdd x v reducesTo_S16384x64x1_S16384x1_d1 h_S_),
    unary main_v39 main_v40 (broadcastInDim S16384x1x1 ![0, 2] bcast_S16384x1_S16384x1x1_0_2),
    unary main_v40 main_v41 (broadcastInDim S16384x64x1 ![0, 1, 2] bcast_S16384x1x1_S16384x64x1_0_1_2),
    binary main_v38 main_v41 main_v42 Host.divf,
    unary main_v42 main_v43 (broadcastInDim S16384x64x64 ![0, 1, 2] bcast_S16384x64x1_S16384x64x64_0_1_2),
    binary main_v43 main_arg0 main_v44 mulf,
    nullary main_cst_10 (constant S_ .f32 0x00000000#32),
    binary main_v44 main_cst_10 main_v45 (fun x v => Host.reduceAdd x v reducesTo_S16384x64x64_S16384x64_d1 h_S_),
    TRef.binary (TRef.of (T := ⟨S16384x64, .f32⟩) main_v45) (TRef.of (T := ⟨S16384x64, .f32⟩) main_v45) (TRef.of (T := ⟨S16384x64, .f32⟩) main_call1_v0) mulf,
    TRef.nullary (TRef.of (T := ⟨S_, .f32⟩) main_call1_cst) (constant S_ .f32 0x00000000#32),
    TRef.binary (TRef.of (T := ⟨S16384x64, .f32⟩) main_call1_v0) (TRef.of (T := ⟨S_, .f32⟩) main_call1_cst) (TRef.of (T := ⟨S16384, .f32⟩) main_call1_v1) (fun x v => Host.reduceAdd x v reducesTo_S16384x64_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v46) Host.sqrt,
    binary main_v46 main_v46 main_v47 mulf,
    binary main_v46 main_v46 main_v48 mulf,
    nullary main_cst_11 (constant S_ .f32 0x3F800000#32),
    unary main_cst_11 main_v49 (broadcastInDim S16384x1 ![] bcast_S_S16384x1),
    binary main_v49 main_v48 main_v50 addf,
    binary main_v47 main_v50 main_v51 Host.divf,
    nullary main_cst_12 (constant S_ .f32 0x322BCC77#32),
    unary main_cst_12 main_v52 (broadcastInDim S16384x1 ![] bcast_S_S16384x1),
    binary main_v46 main_v52 main_v53 addf,
    binary main_v51 main_v53 main_v54 Host.divf,
    unary main_v54 main_v55 (broadcastInDim S16384x64 ![0, 1] bcast_S16384x1_S16384x64_0_1),
    binary main_v55 main_v45 main_v56 mulf,
    unary main_v56 main_v57 (broadcastInDim S16384x1x64 ![0, 2] bcast_S16384x64_S16384x1x64_0_2),
    unary main_v57 main_v58 (broadcastInDim S16384x64x64 ![0, 1, 2] bcast_S16384x1x64_S16384x64x64_0_1_2),
    binary main_arg0 main_v58 main_v59 mulf,
    nullary main_cst_13 (constant S_ .f32 0x00000000#32),
    binary main_v59 main_cst_13 main_v60 (fun x v => Host.reduceAdd x v reducesTo_S16384x64x64_S16384x64_d2 h_S_),
    unary main_v60 main_v61 (broadcastInDim S16384x64x1 ![0, 1] bcast_S16384x64_S16384x64x1_0_1),
    binary main_v31 main_v61 main_v62 addf ]

/-- The third round, up to its squashed weighted sum `main_v87`, the program's result. -/
abbrev round3 : List (HloOp τ sig (Elt F)) :=
  [
    nullary main_cst_14 (constant S_ .f32 0xFF800000#32),
    binary main_v62 main_cst_14 main_v63 (fun x v => Host.reduce FloatOps.maximumf x v reducesTo_S16384x64x1_S16384x1_d1 h_S_),
    nullary main_cst_15 (constant S_ .f32 0xFF800000#32),
    unary main_cst_15 main_v64 (broadcastInDim S16384x1 ![] bcast_S_S16384x1),
    binary main_v64 main_v63 main_v65 maximumf,
    unary main_v65 main_v66 (broadcastInDim S16384x1x1 ![0, 2] bcast_S16384x1_S16384x1x1_0_2),
    unary main_v66 main_v67 (broadcastInDim S16384x64x1 ![0, 1, 2] bcast_S16384x1x1_S16384x64x1_0_1_2),
    binary main_v62 main_v67 main_v68 subf,
    unary main_v68 main_v69 Host.exp,
    nullary main_cst_16 (constant S_ .f32 0x00000000#32),
    binary main_v69 main_cst_16 main_v70 (fun x v => Host.reduceAdd x v reducesTo_S16384x64x1_S16384x1_d1 h_S_),
    unary main_v70 main_v71 (broadcastInDim S16384x1x1 ![0, 2] bcast_S16384x1_S16384x1x1_0_2),
    unary main_v71 main_v72 (broadcastInDim S16384x64x1 ![0, 1, 2] bcast_S16384x1x1_S16384x64x1_0_1_2),
    binary main_v69 main_v72 main_v73 Host.divf,
    unary main_v73 main_v74 (broadcastInDim S16384x64x64 ![0, 1, 2] bcast_S16384x64x1_S16384x64x64_0_1_2),
    binary main_v74 main_arg0 main_v75 mulf,
    nullary main_cst_17 (constant S_ .f32 0x00000000#32),
    binary main_v75 main_cst_17 main_v76 (fun x v => Host.reduceAdd x v reducesTo_S16384x64x64_S16384x64_d1 h_S_),
    TRef.binary (TRef.of (T := ⟨S16384x64, .f32⟩) main_v76) (TRef.of (T := ⟨S16384x64, .f32⟩) main_v76) (TRef.of (T := ⟨S16384x64, .f32⟩) main_call2_v0) mulf,
    TRef.nullary (TRef.of (T := ⟨S_, .f32⟩) main_call2_cst) (constant S_ .f32 0x00000000#32),
    TRef.binary (TRef.of (T := ⟨S16384x64, .f32⟩) main_call2_v0) (TRef.of (T := ⟨S_, .f32⟩) main_call2_cst) (TRef.of (T := ⟨S16384, .f32⟩) main_call2_v1) (fun x v => Host.reduceAdd x v reducesTo_S16384x64_S16384_d1 h_S_),
    TRef.unary (TRef.of (T := ⟨S16384, .f32⟩) main_call2_v1) (TRef.of (T := ⟨S16384x1, .f32⟩) main_call2_v2) (broadcastInDim S16384x1 ![0] bcast_S16384_S16384x1_0),
    TRef.unary (TRef.of (T := ⟨S16384x1, .f32⟩) main_call2_v2) (TRef.of (T := ⟨S16384x1, .f32⟩) main_v77) Host.sqrt,
    binary main_v77 main_v77 main_v78 mulf,
    binary main_v77 main_v77 main_v79 mulf,
    nullary main_cst_18 (constant S_ .f32 0x3F800000#32),
    unary main_cst_18 main_v80 (broadcastInDim S16384x1 ![] bcast_S_S16384x1),
    binary main_v80 main_v79 main_v81 addf,
    binary main_v78 main_v81 main_v82 Host.divf,
    nullary main_cst_19 (constant S_ .f32 0x322BCC77#32),
    unary main_cst_19 main_v83 (broadcastInDim S16384x1 ![] bcast_S_S16384x1),
    binary main_v77 main_v83 main_v84 addf,
    binary main_v82 main_v84 main_v85 Host.divf,
    unary main_v85 main_v86 (broadcastInDim S16384x64 ![0, 1] bcast_S16384x1_S16384x64_0_1),
    binary main_v86 main_v76 main_v87 mulf ]

/-- @main's operations, in order. -/
abbrev ops : List (HloOp τ sig (Elt F)) := round1 ++ (round2 ++ round3)

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem round1_sub : (round1 : List (HloOp τ sig (Elt F))).Forall fun op => op.bufs ⊆ tcRefs τ sig :=
  ⟨nullary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., binary_bufs_sub .., unary_bufs_sub .., binary_bufs_sub ..⟩
theorem round2_sub : (round2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., binary_bufs_sub .., unary_bufs_sub .., binary_bufs_sub ..⟩
theorem round3_sub : (round3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub ..⟩

theorem ops_sub : (ops : List (HloOp τ sig (Elt F))).Forall fun op => op.bufs ⊆ tcRefs τ sig :=
  List.forall_append.2 ⟨round1_sub, List.forall_append.2 ⟨round2_sub, round3_sub⟩⟩

/-- Every operation determines its results. -/
theorem round1_fresh : ∀ op ∈ (round1 : List (HloOp τ sig (Elt F))), op.fresh = ∅ := by
  intro _ h; (repeat (cases h with | head => rfl | tail _ h => ?_)); exact nomatch h
theorem round2_fresh : ∀ op ∈ (round2 : List (HloOp τ sig (Elt F))), op.fresh = ∅ := by
  intro _ h; (repeat (cases h with | head => rfl | tail _ h => ?_)); exact nomatch h
theorem round3_fresh : ∀ op ∈ (round3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.1 h with h | h
  · exact round1_fresh op h
  rcases List.mem_append.1 h with h | h
  · exact round2_fresh op h
  · exact round3_fresh op h

/-! ## What each stretch leaves -/

set_option maxRecDepth 8192 in
set_option maxHeartbeats 2000000 in
theorem round1_logits (V : Valuation τ sig (Elt F)) :
    after round1 V (main_v31 : DevRef τ sig) = Rounds.round Rounds.logits0 (V (main_arg0 : DevRef τ sig)) := by
  after_results_simp
  rfl

set_option maxRecDepth 8192 in
theorem round1_arg (V : Valuation τ sig (Elt F)) :
    after round1 V (main_arg0 : DevRef τ sig) = V (main_arg0 : DevRef τ sig) := by
  after_results_simp

set_option maxRecDepth 8192 in
set_option maxHeartbeats 2000000 in
theorem round2_logits (V : Valuation τ sig (Elt F)) :
    after round2 V (main_v62 : DevRef τ sig)
      = Rounds.round (V (main_v31 : DevRef τ sig)) (V (main_arg0 : DevRef τ sig)) := by
  after_results_simp
  rfl

set_option maxRecDepth 8192 in
theorem round2_arg (V : Valuation τ sig (Elt F)) :
    after round2 V (main_arg0 : DevRef τ sig) = V (main_arg0 : DevRef τ sig) := by
  after_results_simp

set_option maxRecDepth 8192 in
set_option maxHeartbeats 2000000 in
theorem round3_output (V : Valuation τ sig (Elt F)) :
    after round3 V (main_v87 : DevRef τ sig)
      = Rounds.output (V (main_v62 : DevRef τ sig)) (V (main_arg0 : DevRef τ sig)) := by
  after_results_simp
  rfl

set_option maxRecDepth 8192 in
theorem round3_arg (V : Valuation τ sig (Elt F)) :
    after round3 V (main_arg0 : DevRef τ sig) = V (main_arg0 : DevRef τ sig) := by
  after_results_simp

/-- The three stretches composed: the result buffer ends at the routing of the argument. -/
theorem result_eq (V : Valuation τ sig (Elt F)) :
    after ops V (main_v87 : DevRef τ sig) = Rounds.result (V (main_arg0 : DevRef τ sig)) := by
  rw [StableHlo.after_append, StableHlo.after_append, round3_output, round2_logits, round2_arg, round1_logits, round1_arg]
  rfl

theorem arg_eq (V : Valuation τ sig (Elt F)) :
    after ops V (main_arg0 : DevRef τ sig) = V (main_arg0 : DevRef τ sig) := by
  rw [StableHlo.after_append, StableHlo.after_append, round3_arg, round2_arg, round1_arg]

/-- From any memory with zero counters every weakly fair execution of @main terminates, the result buffer at the
    routing of the argument as launched and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = Rounds.result (m ((c.tc : Thread nD τ).loc main_arg0))
      ∧ r.2.mem ((c.tc : Thread nD τ).loc main_arg0) = m ((c.tc : Thread nD τ).loc main_arg0) :=
  (θ_run defs _ _).mono
    (fun _ h c => ⟨(h c main_v87).trans (result_eq (launchContents m c)), (h c main_arg0).trans (arg_eq (launchContents m c))⟩)
    (run_seq scopedRefs_eq scopedSems_eq defs main (fun _ => ops) main_eq (fun _ => ops_sub) m ρ (fun _ => ops_fresh))

end Cert.ReferenceIdeal.RoundRun

end
-- ==== Proof.lean ====
/-
  Routing by agreement, three rounds, on 16384 rows of 64 capsules of 64 coordinates: a kernel that handles
  128 rows per grid point against the plain array program.  Row by row the two compute the same function
  (Proof/Routing.lean): the same softmax over the capsules, the same weighted sum, the same agreement
  update; only the squashing factor is spelled differently, with the squared length q on one side and
  √q · √q on the other, and these agree because q, a sum of squares, is never negative on the extended
  reals.  No finiteness of the input is used.

  Kernel side: what a grid point stores is, row by row, the routing of its staged rows
  (Proof/KernelRounds.lean), so the result array ends as the batch routed row by row
  (Proof/KernelValue.lean).  Reference side: its straight line of host operations leaves the same
  function of its argument (Proof/ReferenceRun.lean, Proof/HostRounds.lean).  The idealization rewrote
  nothing, so it preserves the kernel trivially.
-/
import proofs.«119546_j77833397338704_1_alg».proof.Defs
import proofs.«119546_j77833397338704_1_alg».proof.Proof.Gen.Kernel
import proofs.«119546_j77833397338704_1_alg».proof.Proof.Gen.Kernel.Skeleton
import proofs.«119546_j77833397338704_1_alg».proof.Proof.Gen.Kernel.Launch
import proofs.«119546_j77833397338704_1_alg».proof.Proof.Gen.Kernel.Points
import proofs.«119546_j77833397338704_1_alg».proof.Proof.Gen.Kernel.Frame
import proofs.«119546_j77833397338704_1_alg».proof.Proof.Gen.KernelIdeal
import proofs.«119546_j77833397338704_1_alg».proof.Proof.Gen.KernelIdeal.Skeleton
import proofs.«119546_j77833397338704_1_alg».proof.Proof.Gen.KernelIdeal.Launch
import proofs.«119546_j77833397338704_1_alg».proof.Proof.Gen.KernelIdeal.Points
import proofs.«119546_j77833397338704_1_alg».proof.Proof.Gen.KernelIdeal.Frame
import proofs.«119546_j77833397338704_1_alg».proof.Proof.Gen.ReferenceIdeal
import proofs.«119546_j77833397338704_1_alg».proof.Proof.Gen.Pre_finite_inputs
import proofs.«119546_j77833397338704_1_alg».proof.Proof.KernelValue
import proofs.«119546_j77833397338704_1_alg».proof.Proof.ReferenceRun
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result, as a whole array, is the batch routed row by row: at (r, d) both are coordinate d of the
    routing of row r. -/
theorem reference_routed (x : FVec Ideal Cert.ReferenceIdeal.S16384x64x64 .f32) :
    Cert.ReferenceIdeal.Rounds.result x = Cert.KernelIdeal.Routed.routeAll x := by
  funext i
  obtain ⟨r, d, rfl⟩ : ∃ (r : Fin 16384) (d : Fin 64), i = ix2 r d := ⟨i 0, i 1, eq_ix2 i⟩
  exact Cert.ReferenceIdeal.Rounds.result_apply x r d

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RoundRun.run (F := Ideal) m ρ)

/-- The ideal pass rewrote no operation. -/
theorem preserves : Cert.preserves_Kernel_KernelIdeal := trivial

/-- Both programs end with the batch routed row by row, of arguments that agree. -/
theorem algebraic : Cert.algebraic_KernelIdeal_ReferenceIdeal := by
  intro m ρ m' ρ' _ hagree
  refine ⟨_, Cert.KernelIdeal.Routed.run m ρ, ?_⟩
  refine (θ_run Cert.ReferenceIdeal.defs _ _).mono (fun _ h c => ⟨(h c).1.trans ?_, (h c).2⟩)
    (Cert.ReferenceIdeal.RoundRun.run (F := Ideal) m' ρ')
  rw [hagree c]
  exact reference_routed _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
